-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150x150 : Shape := ⟨2, ![150, 150]⟩
abbrev S8388608 : Shape := ⟨1, ![8388608]⟩
abbrev S_ : Shape := ⟨0, ![]⟩

class Facts : Prop where
  bcast_S_S150x150 : S_.BroadcastsInDim S150x150 (![] : Fin 0 → Fin S150x150.rank)
  reducesTo_S150x150_S_d0_1 : S150x150.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_v10 : IVec S_ 1) (main_v15 : IVec S8388608 1) (main_c_5 : IVec S_ 1) : IVec S_ 1 :=
  let main_v16 : IVec S_ 1 := (fun x v => Host.reduce IntOp.andi x v reducesTo_S8388608_S_d0 h_S_) main_v15 main_c_5
  let main_v17 : IVec S_ 1 := andi main_v10 main_v16
  main_v17

def fn {F : FTy → Type} [FloatOps F] (main_arg0 : FVec F S150x150 .f32) (main_arg1 : IVec S8388608 32) (main_arg2 : IVec S8388608 32) : IVec S_ 1 :=
  let main_v0 : FVec F S150x150 .f32 := Host.absf main_arg0
  let main_cst : FVec F S_ .f32 := constant S_ .f32 0x7F800000#32
  let main_v1 : FVec F S150x150 .f32 := broadcastInDim S150x150 ![] bcast_S_S150x150 main_cst
  let main_v2 : IVec S150x150 1 := cmpf .olt main_v0 main_v1
  let main_c : IVec S_ 1 := constantI S_ 1 1#1
  let main_v3 : IVec S_ 1 := (fun x v => Host.reduce IntOp.andi x v reducesTo_S150x150_S_d0_1 h_S_) main_v2 main_c
  let main_c_0 : IVec S_ 32 := constantI S_ 32 0#32
  let main_v4 : IVec S8388608 32 := broadcastInDim S8388608 ![] bcast_S_S8388608 main_c_0
  let main_v5 : IVec S8388608 1 := cmpi .sge main_arg1 main_v4
  let main_c_1 : IVec S_ 32 := constantI S_ 32 150#32
  let main_v6 : IVec S8388608 32 := broadcastInDim S8388608 ![] bcast_S_S8388608 main_c_1
  let main_v7 : IVec S8388608 1 := cmpi .slt main_arg1 main_v6
  let main_v8 : IVec S8388608 1 := andi main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  let main_c_3 : IVec S_ 32 := constantI S_ 32 0#32
  let main_v11 : IVec S8388608 32 := broadcastInDim S8388608 ![] bcast_S_S8388608 main_c_3
  let main_v12 : IVec S8388608 1 := cmpi .sge main_arg2 main_v11
  let main_c_4 : IVec S_ 32 := constantI S_ 32 150#32
  let main_v13 : IVec S8388608 32 := broadcastInDim S8388608 ![] bcast_S_S8388608 main_c_4
  let main_v14 : IVec S8388608 1 := cmpi .slt main_arg2 main_v13
  let main_v15 : IVec S8388608 1 := andi main_v12 main_v14
  let main_c_5 : IVec S_ 1 := constantI S_ 1 1#1
  fn_part1 (F := F) main_v10 main_v15 main_c_5
-- ==== Kernel.lean ====
abbrev S150x150 : Shape := ⟨2, ![150, 150]⟩
abbrev S8388608 : Shape := ⟨1, ![8388608]⟩
abbrev S1x8388608 : Shape := ⟨2, ![1, 8388608]⟩
abbrev S2x150x150 : Shape := ⟨3, ![2, 150, 150]⟩
abbrev S1x262144 : Shape := ⟨2, ![1, 262144]⟩
abbrev S1x150x150 : Shape := ⟨3, ![1, 150, 150]⟩
abbrev S160x160 : Shape := ⟨2, ![160, 160]⟩
abbrev S160x1 : Shape := ⟨2, ![160, 1]⟩
abbrev S1x8192 : Shape := ⟨2, ![1, 8192]⟩
abbrev S160x8192 : Shape := ⟨2, ![160, 8192]⟩

abbrev nBuf : Space → Nat
  | .hbm => 12
  | .vmem => 7
  | .smem => 0
  | _ => 0

abbrev bufTy : (tb : Table) → Fin (tcTables nBuf tb) → BufTy
  | .hbm, ⟨0, _⟩ => ⟨S150x150, .f32⟩
  | .hbm, ⟨1, _⟩ => ⟨S8388608, .i32⟩
  | .hbm, ⟨2, _⟩ => ⟨S8388608, .i32⟩
  | .hbm, ⟨3, _⟩ => ⟨S1x8388608, .i32⟩
  | .hbm, ⟨4, _⟩ => ⟨S1x8388608, .i32⟩
  | .hbm, ⟨5, _⟩ => ⟨S2x150x150, .f32⟩
  | .hbm, ⟨6, _⟩ => ⟨S1x150x150, .f32⟩
  | .hbm, ⟨7, _⟩ => ⟨S150x150, .f32⟩
  | .hbm, ⟨8, _⟩ => ⟨S150x150, .f32⟩
  | .hbm, ⟨9, _⟩ => ⟨S1x150x150, .f32⟩
  | .hbm, ⟨10, _⟩ => ⟨S150x150, .f32⟩
  | .hbm, ⟨11, _⟩ => ⟨S150x150, .f32⟩
  | .local _ .vmem, ⟨0, _⟩ => ⟨S1x262144, .i32⟩
  | .local _ .vmem, ⟨1, _⟩ => ⟨S1x262144, .i32⟩
  | .local _ .vmem, ⟨2, _⟩ => ⟨S1x262144, .i32⟩
  | .local _ .vmem, ⟨3, _⟩ => ⟨S1x262144, .i32⟩
  | .local _ .vmem, ⟨4, _⟩ => ⟨S1x150x150, .f32⟩
  | .local _ .vmem, ⟨5, _⟩ => ⟨S1x150x150, .f32⟩
  | .local _ .vmem, ⟨6, _⟩ => ⟨S160x160, .f32⟩
  | _, _ => ⟨S150x150, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32 : BitVec 32 := 32#32
  let v5 : BitVec 32 := Scalar.addi c0_i32_1 c32_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c8192_i32 : BitVec 32 := 8192#32
  let v9 : BitVec 32 := Scalar.muli arg6 c8192_i32
  v9
def k0_off1 (k0_t1 : Fin k0_t1_loop.trips) : Fin 2 → Nat :=
  let c0 : Index := 0#32
  let c0_i32_1 : BitVec 32 := 0#32
  let c1_i32 : BitVec 32 := 1#32
  let arg6 : BitVec 32 := Scf.iv c0_i32_1 c1_i32 k0_t1
  let c8192_i32 : BitVec 32 := 8192#32
  let v9 : BitVec 32 := Scalar.muli arg6 c8192_i32
  let v10 : BitVec 32 := v9
  let v11 : Index := Scalar.indexCast v10
  ![0, v11.toNat]
def k0_cond2 (i : grid0.Coords) : BitVec 1 :=
  let arg1 : BitVec 32 := BitVec.ofNat 32 (i 1).val
  let c15_i32 : BitVec 32 := 15#32
  let v6 : BitVec 1 := Scalar.cmpi .eq arg1 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x262144 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x150x150 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8388608_S1x8388608 : S8388608.ShapeCasts S1x8388608
  inb_S160x160_S160x160_0_0 : ∀ a, (![0, 0] : Fin 2 → Nat) a + S160x160.size a ≤ S160x160.size a
  h_S160x160 : 0 < S160x160.numel
  shapeCasts_S160x160_S160x160 : S160x160.ShapeCasts S160x160
  iota_S160x1_d0_w32 : S160x1.Iotas .tc 32 [0]
  h_S1x8192 : 0 < S1x8192.numel
  shapeCasts_S1x8192_S1x8192 : S1x8192.ShapeCasts S1x8192
  broadcasts_S1x8192_S160x8192 : S1x8192.Broadcasts S160x8192
  broadcasts_S160x1_S160x8192 : S160x1.Broadcasts S160x8192
  natLt_1_32 : 1 < 32
  bitsLt_bf16_f32 : FTy.bits .bf16 < FTy.bits .f32
  inb_S160x160_S150x150_0_0 : ∀ a, (![0, 0] : Fin 2 → Nat) a + S150x150.size a ≤ S160x160.size a
  h_S150x150 : 0 < S150x150.numel
  inb_S1x150x150_S1x150x150_0_0_0 : ∀ a, (![0, 0, 0] : Fin 3 → Nat) a + S1x150x150.size a ≤ S1x150x150.size a
  h_S1x150x150 : 0 < S1x150x150.numel
  shapeCasts_S1x150x150_S150x150 : S1x150x150.ShapeCasts S150x150
  shapeCasts_S150x150_S1x150x150 : S150x150.ShapeCasts S1x150x150
  slices_S2x150x150_S1x150x150_0_0_0 : S2x150x150.Slices ![0, 0, 0] S1x150x150
  slices_S2x150x150_S1x150x150_1_0_0 : S2x150x150.Slices ![1, 0, 0] S1x150x150
  dot_S160x8192_S160x8192_S160x160_1_1_0_0_n_n_wf : DotDims.WF S160x8192 S160x8192 S160x160 [1] [1] [0] [0] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S1x8192.size a ≤ S1x262144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x262144.size a ≤ S1x8388608.size a
  hwx0_0 : ∀ i : grid0.Coords, EltTy.bits .i32 = 32 ∨ (Rect.block (s := S1x8388608) S1x262144.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x262144.size a ≤ S1x8388608.size a
  hwx0_1 : ∀ i : grid0.Coords, EltTy.bits .i32 = 32 ∨ (Rect.block (s := S1x8388608) S1x262144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x150.size a ≤ S2x150x150.size a
  hwx0_2 : ∀ i : grid0.Coords, EltTy.bits .f32 = 32 ∨ (Rect.block (s := S2x150x150) S1x150x150.size (cc0_transform_2 i) (hinb0_2 i)).WholeWords (EltTy.packing .f32)

variable [Facts₀]

def dot_S160x8192_S160x8192_S160x160_1_1_0_0_n_n : DotDims S160x8192 S160x8192 S160x160 where
  lhsContracting := [1]
  rhsContracting := [1]
  lhsNonContracting := [0]
  rhsNonContracting := [0]
  lhsBatch := []
  rhsBatch := []
  wf := dot_S160x8192_S160x8192_S160x160_1_1_0_0_n_n_wf

abbrev win0_0 : Pipeline.Window sig grid0 :=
  Pipeline.Window.ofSpec (Memref.whole main_v1) S1x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x150x150.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S150x150 : Shape := ⟨2, ![150, 150]⟩
abbrev S8388608 : Shape := ⟨1, ![8388608]⟩
abbrev S_ : Shape := ⟨0, ![]⟩
abbrev S22500 : Shape := ⟨1, ![22500]⟩
abbrev S8388608x1 : Shape := ⟨2, ![8388608, 1]⟩

abbrev nBuf : Space → Nat
  | .hbm => 15
  | .vmem => 0
  | .smem => 0
  | _ => 0

abbrev bufTy : (tb : Table) → Fin (tcTables nBuf tb) → BufTy
  | .hbm, ⟨0, _⟩ => ⟨S150x150, .f32⟩
  | .hbm, ⟨1, _⟩ => ⟨S8388608, .i32⟩
  | .hbm, ⟨2, _⟩ => ⟨S8388608, .i32⟩
  | .hbm, ⟨3, _⟩ => ⟨S_, .i32⟩
  | .hbm, ⟨4, _⟩ => ⟨S8388608, .i32⟩
  | .hbm, ⟨5, _⟩ => ⟨S8388608, .i32⟩
  | .hbm, ⟨6, _⟩ => ⟨S8388608, .i32⟩
  | .hbm, ⟨7, _⟩ => ⟨S_, .f32⟩
  | .hbm, ⟨8, _⟩ => ⟨S8388608, .f32⟩
  | .hbm, ⟨9, _⟩ => ⟨S_, .f32⟩
  | .hbm, ⟨10, _⟩ => ⟨S22500, .f32⟩
  | .hbm, ⟨11, _⟩ => ⟨S8388608x1, .i32⟩
  | .hbm, ⟨12, _⟩ => ⟨S22500, .f32⟩
  | .hbm, ⟨13, _⟩ => ⟨S150x150, .f32⟩
  | .hbm, ⟨14, _⟩ => ⟨S150x150, .f32⟩
  | _, _ => ⟨S150x150, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S_S22500 : S_.BroadcastsInDim S22500 (![] : Fin 0 → Fin S22500.rank)
  bcast_S8388608_S8388608x1_0 : S8388608.BroadcastsInDim S8388608x1 (![0] : Fin 1 → Fin S8388608x1.rank)
  shapeCasts_S22500_S150x150 : S22500.ShapeCasts S150x150
  scatter_S22500_S8388608x1_S8388608_n_0_0_1_wf : ScatterDims.WF S22500 S8388608x1 S8388608 [] [0] [0] 1

variable [Facts₀]

def scatter_S22500_S8388608x1_S8388608_n_0_0_1 : ScatterDims S22500 S8388608x1 S8388608 where
  updateWindowDims := []
  insertedWindowDims := [0]
  scatterDimsToOperandDims := [0]
  indexVectorDim := 1
  wf := scatter_S22500_S8388608x1_S8388608_n_0_0_1_wf

class Facts : Prop extends Facts₀ where

variable [Facts]
-- ==== Proof.KernelLoop.lean ====
/-
  What the body's loop leaves in the scratch, and what each case of the body leaves behind.

  The loop makes 32 trips. Trip k reads chunk k (8192 labels) of each of the two staged label blocks and the whole
  scratch, and stores the trip's payload of those three back over the whole scratch. So after k trips the scratch reads
  as the k-fold iterate of "payload of chunk k and what was there", started from what the loop found; and because every
  store covers the whole scratch, a read after at least one trip does not depend on what the buffer held before.
  A point that starts a half of the samples fills the scratch with zeros before the loop; the others start from what the
  point before left; the last point of a half also copies the scratch's 150 × 150 corner to the output block.
-/
import proofs.«405786_j24532853194784_2_alg».proof.Proof.Gen.KernelIdeal.Frame
import Idealize.ShloMosaic.Lib.Pipeline.Value

set_option maxRecDepth 65536

noncomputable section

namespace Cert.Hist.Loop

open Idealize.ShloMosaic Idealize.ShloMosaic.TcCoe Idealize.ShloMosaic.Tactic
open Idealize.SL Idealize.SL.Sem
open Cert.KernelIdeal Cert.KernelIdeal.Gen

variable {F : FTy → Type} [FloatOps F]

/-- The whole-scratch rectangle's offsets are zero on both axes. -/
theorem hz2 : (![0, 0] : Fin S160x160.rank → ℕ) = fun _ => 0 := by
  funext a; fin_cases a <;> rfl

/-- The loop makes 32 trips. -/
theorem trips_eq : k0_t1_loop.trips = 32 := by decide

/-- Chunk k of a staged label block: the 8192 labels the trip reads. -/
def chunk (arg : Memref sig .tc .vmem S1x262144 .i32) (X : BufTy.Contents (Elt F) arg.view.ty)
    (k : Fin k0_t1_loop.trips) : Vec F S1x8192 .i32 :=
  View.readAt (Elt F) arg.view (Rect.unit (s := S1x262144) (k0_off1 k) S1x8192.size (k0_off1_inb k)).toLoadRect X

/-- The whole-scratch store of one trip. -/
abbrev wholeR : Rect S160x160 := Rect.unit ![0, 0] S160x160.size inb_S160x160_S160x160_0_0

/-- ONE TRIP's pieces: a single store over the whole scratch of the trip's payload of chunk k of each label block and
    of the scratch as the trip finds it. -/
theorem tripL_eq (𝒱 : Variants) (c : Dev nD) (bd : Option 𝒱.V) (i : grid0.Coords)
    (arg2 : Memref sig .tc .vmem S1x262144 .i32) (harg2 : arg2.IsWhole) (arg3 : Memref sig .tc .vmem S1x262144 .i32) (harg3 : arg3.IsWhole)
    (arg4 : Memref sig .tc .vmem S1x150x150 .f32) (harg4 : arg4.IsWhole) (arg5 : Memref sig .tc .vmem S160x160 .f32) (harg5 : arg5.IsWhole)
    (X2 : BufTy.Contents (Elt F) arg2.view.ty) (X3 : BufTy.Contents (Elt F) arg3.view.ty)
    (k : Fin k0_t1_loop.trips) (f : BufTy.Contents (Elt F) arg5.view.ty) :
    tripL_k0_t1 (F := F) 𝒱 c bd i arg2 harg2 arg3 harg3 arg4 harg4 arg5 harg5 X2 X3 k f
      = [(⟨wholeR, k0_pay2 (chunk arg2 X2 k) (chunk arg3 X3 k) (View.readAt (Elt F) arg5.view wholeR.toLoadRect f)⟩ : View.Piece (Elt F) S160x160 .f32)] := by
  unfold tripL_k0_t1 trip_k0_t1
  dsimp only
  rfl

/-- The scratch after k trips, from contents g at the loop's entry: trip by trip, the payload of the trip's chunks and
    of what the trips before left. -/
def accum (arg2 arg3 : Memref sig .tc .vmem S1x262144 .i32)
    (X2 : BufTy.Contents (Elt F) arg2.view.ty) (X3 : BufTy.Contents (Elt F) arg3.view.ty) :
    ℕ → Vec F S160x160 .f32 → Vec F S160x160 .f32
  | 0, g => g
  | k + 1, g =>
    if h : k < k0_t1_loop.trips then k0_pay2 (chunk arg2 X2 ⟨k, h⟩) (chunk arg3 X3 ⟨k, h⟩) (accum arg2 arg3 X2 X3 k g)
    else accum arg2 arg3 X2 X3 k g

theorem accum_succ (arg2 arg3 : Memref sig .tc .vmem S1x262144 .i32)
    (X2 : BufTy.Contents (Elt F) arg2.view.ty) (X3 : BufTy.Contents (Elt F) arg3.view.ty)
    (k : Fin k0_t1_loop.trips) (g : Vec F S160x160 .f32) :
    accum arg2 arg3 X2 X3 (k.val + 1) g = k0_pay2 (chunk arg2 X2 k) (chunk arg3 X3 k) (accum arg2 arg3 X2 X3 k.val g) := by
  rw [accum]; exact dif_pos k.isLt

section Trips

variable (𝒱 : Variants) (c : Dev nD) (bd : Option 𝒱.V) (i : grid0.Coords)
  (arg2 : Memref sig .tc .vmem S1x262144 .i32) (harg2 : arg2.IsWhole) (arg3 : Memref sig .tc .vmem S1x262144 .i32) (harg3 : arg3.IsWhole)
  (arg4 : Memref sig .tc .vmem S1x150x150 .f32) (harg4 : arg4.IsWhole) (arg5 : Memref sig .tc .vmem S160x160 .f32) (harg5 : arg5.IsWhole)
  (X2 : BufTy.Contents (Elt F) arg2.view.ty) (X3 : BufTy.Contents (Elt F) arg3.view.ty)
  (G : BufTy.Contents (Elt F) arg5.view.ty)

/-- After one more trip the scratch reads as that trip's payload over what the trips before left — whatever the buffer
    held underneath (the trip's store covers the whole scratch), through whichever view of the scratch's shape. -/
theorem read_pb_succ {sig' : RefSig} {κ' : Kind} {sp' : Space} (v' : View sig' κ' sp' S160x160 .f32) (f' : v'.ty.Contents (Elt F))
    (k : Fin k0_t1_loop.trips) :
    v'.read (Elt F) (v'.writes (Elt F) f' (pb_k0_t1 (F := F) 𝒱 c bd i arg2 harg2 arg3 harg3 arg4 harg4 arg5 harg5 X2 X3 G (k.val + 1)))
      = k0_pay2 (chunk arg2 X2 k) (chunk arg3 X3 k)
          (arg5.view.read (Elt F) (arg5.view.writes (Elt F) G (pb_k0_t1 (F := F) 𝒱 c bd i arg2 harg2 arg3 harg3 arg4 harg4 arg5 harg5 X2 X3 G k.val))) := by
  rw [pb_k0_t1_succ, tripL_eq, List.singleton_append]
  rw [View.read_writes_eq_canon _ _ _ (fun y => ⟨_, List.mem_cons_self, View.mem_set_unit_zero hz2 inb_S160x160_S160x160_0_0 y⟩),
    View.canon_cons_unit_zero hz2]
  rw [View.readAt_eq_ld, View.ld_unit_zero hz2]

/-- After k trips (k at most 32) the scratch reads as the k-fold iterate from what the loop found. -/
theorem read_pb (k : ℕ) (hk : k ≤ k0_t1_loop.trips) :
    arg5.view.read (Elt F) (arg5.view.writes (Elt F) G (pb_k0_t1 (F := F) 𝒱 c bd i arg2 harg2 arg3 harg3 arg4 harg4 arg5 harg5 X2 X3 G k))
      = accum arg2 arg3 X2 X3 k (arg5.view.read (Elt F) G) := by
  induction k with
  | zero => rfl
  | succ k ih =>
    have hk' : k < k0_t1_loop.trips := hk
    rw [read_pb_succ 𝒱 c bd i arg2 harg2 arg3 harg3 arg4 harg4 arg5 harg5 X2 X3 G arg5.view G ⟨k, hk'⟩, ih (Nat.le_of_lt hk'),
      accum_succ arg2 arg3 X2 X3 ⟨k, hk'⟩]

/-- After all the trips, through any view and over any prior contents. -/
theorem read_pb_all {sig' : RefSig} {κ' : Kind} {sp' : Space} (v' : View sig' κ' sp' S160x160 .f32) (f' : v'.ty.Contents (Elt F)) :
    v'.read (Elt F) (v'.writes (Elt F) f' (pb_k0_t1 (F := F) 𝒱 c bd i arg2 harg2 arg3 harg3 arg4 harg4 arg5 harg5 X2 X3 G k0_t1_loop.trips))
      = accum arg2 arg3 X2 X3 k0_t1_loop.trips (arg5.view.read (Elt F) G) := by
  have h31 : 31 < k0_t1_loop.trips := by rw [trips_eq]; decide
  have e : k0_t1_loop.trips = 31 + 1 := trips_eq
  rw [e]
  refine (read_pb_succ 𝒱 c bd i arg2 harg2 arg3 harg3 arg4 harg4 arg5 harg5 X2 X3 G v' f' ⟨31, h31⟩).trans ?_
  rw [read_pb 𝒱 c bd i arg2 harg2 arg3 harg3 arg4 harg4 arg5 harg5 X2 X3 G 31 (Nat.le_of_lt h31)]
  exact (accum_succ arg2 arg3 X2 X3 ⟨31, h31⟩ _).symm

end Trips

end Cert.Hist.Loop

end
-- ==== Proof.KernelCases.lean ====
/-
  What each case of the body leaves in the scratch and in the output block, in closed form.

  A point that opens a half of the samples (case A) zero-fills the scratch and then runs the loop: it leaves the 32-fold
  iterate from zero. Any other point (cases B and C) runs the loop on the scratch as the point before left it: it leaves
  the 32-fold iterate from that. The point that closes a half (case C) moreover stores into the output block the
  150 × 150 corner of that scratch, given a leading axis of extent one.
-/
import proofs.«405786_j24532853194784_2_alg».proof.Proof.KernelLoop

set_option maxRecDepth 65536

noncomputable section

namespace Cert.Hist.Loop

open Idealize.ShloMosaic Idealize.ShloMosaic.TcCoe Idealize.ShloMosaic.Tactic
open Idealize.SL Idealize.SL.Sem
open Cert.KernelIdeal Cert.KernelIdeal.Gen

variable {F : FTy → Type} [FloatOps F]

/-- The whole-block rectangle of the output's staging buffer has zero offsets. -/
theorem hz3 : (![0, 0, 0] : Fin S1x150x150.rank → ℕ) = fun _ => 0 := by
  funext a; fin_cases a <;> rfl

/-- The zero fill, as a store over the whole scratch. -/
abbrev resetP : View.Piece (Elt F) S160x160 .f32 := ⟨wholeR, k0_pay1 (F := F)⟩

/-- The scratch corner the closing point copies out. -/
abbrev cornerR : Rect S160x160 := Rect.unit ![0, 0] S150x150.size inb_S160x160_S150x150_0_0

section Cases

variable (c : Dev nD) (i : grid0.Coords)
  (arg2 : Memref sig .tc .vmem S1x262144 .i32) (harg2 : arg2.IsWhole) (arg3 : Memref sig .tc .vmem S1x262144 .i32) (harg3 : arg3.IsWhole)
  (arg4 : Memref sig .tc .vmem S1x150x150 .f32) (harg4 : arg4.IsWhole) (arg5 : Memref sig .tc .vmem S160x160 .f32) (harg5 : arg5.IsWhole)
  (x0 x1 : Vec F S1x262144 .i32)

/-- Case A's stores into the scratch: the zero fill, then the loop's trips over it. -/
theorem runA_pieces (hc0 : cond0_0 i) (hc1 : ¬cond0_1 i) :
    (kernelRun0_A (F := F) c i arg2 harg2 arg3 harg3 arg4 harg4 arg5 harg5 hc0 hc1 x0 x1).2.1
      = pb_k0_t1 (F := F) Variants.none c none i arg2 harg2 arg3 harg3 arg4 harg4 arg5 harg5 (harg2.unread x0) (harg3.unread x1)
          (arg5.view.writes (Elt F) arg5.view.junk [resetP]) k0_t1_loop.trips ++ [resetP] := by
  unfold kernelRun0_A
  first
    | rfl
    | (dsimp only; sl_unfold_words; rfl)

/-- Case B's stores into the scratch: the loop's trips over what the point before left. -/
theorem runB_pieces (hc0 : ¬cond0_0 i) (hc1 : ¬cond0_1 i) (xs0 : Vec F S160x160 .f32) :
    (kernelRun0_B (F := F) c i arg2 harg2 arg3 harg3 arg4 harg4 arg5 harg5 hc0 hc1 x0 x1 xs0).2.1
      = pb_k0_t1 (F := F) Variants.none c none i arg2 harg2 arg3 harg3 arg4 harg4 arg5 harg5 (harg2.unread x0) (harg3.unread x1)
          (harg5.unread xs0) k0_t1_loop.trips := by
  unfold kernelRun0_B
  first
    | rfl
    | (dsimp only; sl_unfold_words; rfl)

/-- Case C's stores into the scratch: as case B's. -/
theorem runC_pieces (hc0 : ¬cond0_0 i) (hc1 : cond0_1 i) (xs0 : Vec F S160x160 .f32) :
    (kernelRun0_C (F := F) c i arg2 harg2 arg3 harg3 arg4 harg4 arg5 harg5 hc0 hc1 x0 x1 xs0).2.1
      = pb_k0_t1 (F := F) Variants.none c none i arg2 harg2 arg3 harg3 arg4 harg4 arg5 harg5 (harg2.unread x0) (harg3.unread x1)
          (harg5.unread xs0) k0_t1_loop.trips := by
  unfold kernelRun0_C
  first
    | rfl
    | (dsimp only; sl_unfold_words; rfl)

/-- Case C's one store into the output block: the corner of the scratch as the loop left it. -/
theorem runC_out_pieces (hc0 : ¬cond0_0 i) (hc1 : cond0_1 i) (xs0 : Vec F S160x160 .f32) :
    (kernelRun0_C (F := F) c i arg2 harg2 arg3 harg3 arg4 harg4 arg5 harg5 hc0 hc1 x0 x1 xs0).1
      = [(⟨Rect.unit ![0, 0, 0] S1x150x150.size inb_S1x150x150_S1x150x150_0_0_0,
            k0_pay3 (View.readAt (Elt F) arg5.view cornerR.toLoadRect
              (arg5.view.writes (Elt F) (harg5.unread xs0)
                (pb_k0_t1 (F := F) Variants.none c none i arg2 harg2 arg3 harg3 arg4 harg4 arg5 harg5 (harg2.unread x0) (harg3.unread x1)
                  (harg5.unread xs0) k0_t1_loop.trips)))⟩ : View.Piece (Elt F) S1x150x150 .f32)] := by
  unfold kernelRun0_C
  first
    | rfl
    | (dsimp only; sl_unfold_words; rfl)

/-- The blocks' contents as the loop sees them: a whole staging buffer holding x reads x. -/
abbrev it (g : Vec F S160x160 .f32) : Vec F S160x160 .f32 :=
  accum arg2 arg3 (harg2.unread x0) (harg3.unread x1) k0_t1_loop.trips g

/-- CASE A leaves the iterate from the zero fill. -/
theorem sout_A (hc0 : cond0_0 i) (hc1 : ¬cond0_1 i) :
    sout0_A_0 (F := F) c i arg2 harg2 arg3 harg3 arg4 harg4 arg5 harg5 hc0 hc1 x0 x1
      = it arg2 harg2 arg3 harg3 x0 x1 (k0_pay1 (F := F)) := by
  unfold sout0_A_0
  rw [runA_pieces, View.writes_append,
    read_pb_all Variants.none c none i arg2 harg2 arg3 harg3 arg4 harg4 arg5 harg5 (harg2.unread x0) (harg3.unread x1)
      (arg5.view.writes (Elt F) arg5.view.junk [resetP]) VS0_0 (VS0_0.writes (Elt F) VS0_0.junk [resetP])]
  rw [View.read_writes_eq_canon _ _ _ (fun y => ⟨_, List.mem_cons_self, View.mem_set_unit_zero hz2 inb_S160x160_S160x160_0_0 y⟩),
    View.canon_unit_zero hz2]

/-- CASE B leaves the iterate from what the point before left. -/
theorem sout_B (hc0 : ¬cond0_0 i) (hc1 : ¬cond0_1 i) (xs0 : Vec F S160x160 .f32) :
    sout0_B_0 (F := F) c i arg2 harg2 arg3 harg3 arg4 harg4 arg5 harg5 hc0 hc1 x0 x1 xs0
      = it arg2 harg2 arg3 harg3 x0 x1 xs0 := by
  unfold sout0_B_0
  rw [runB_pieces,
    read_pb_all Variants.none c none i arg2 harg2 arg3 harg3 arg4 harg4 arg5 harg5 (harg2.unread x0) (harg3.unread x1)
      (harg5.unread xs0) VS0_0 VS0_0.junk, harg5.read_unread]

/-- CASE C leaves the same in the scratch, -/
theorem sout_C (hc0 : ¬cond0_0 i) (hc1 : cond0_1 i) (xs0 : Vec F S160x160 .f32) :
    sout0_C_0 (F := F) c i arg2 harg2 arg3 harg3 arg4 harg4 arg5 harg5 hc0 hc1 x0 x1 xs0
      = it arg2 harg2 arg3 harg3 x0 x1 xs0 := by
  unfold sout0_C_0
  rw [runC_pieces,
    read_pb_all Variants.none c none i arg2 harg2 arg3 harg3 arg4 harg4 arg5 harg5 (harg2.unread x0) (harg3.unread x1)
      (harg5.unread xs0) VS0_0 VS0_0.junk, harg5.read_unread]

/-- and in the output block the corner of it, with a leading axis of extent one. -/
theorem out_C (hc0 : ¬cond0_0 i) (hc1 : cond0_1 i) (xs0 : Vec F S160x160 .f32) :
    out0_C_2 (F := F) c i arg2 harg2 arg3 harg3 arg4 harg4 arg5 harg5 hc0 hc1 x0 x1 xs0
      = k0_pay3 (View.ld (it arg2 harg2 arg3 harg3 x0 x1 xs0) cornerR) := by
  unfold out0_C_2
  rw [runC_out_pieces,
    View.read_writes_eq_canon _ _ _ (fun y => ⟨_, List.mem_cons_self, View.mem_set_unit_zero hz3 inb_S1x150x150_S1x150x150_0_0_0 y⟩),
    View.canon_unit_zero hz3, View.readAt_eq_ld,
    read_pb_all Variants.none c none i arg2 harg2 arg3 harg3 arg4 harg4 arg5 harg5 (harg2.unread x0) (harg3.unread x1)
      (harg5.unread xs0) arg5.view (harg5.unread xs0), harg5.read_unread]

end Cases

end Cert.Hist.Loop

end
-- ==== Proof.Spec.lean ====
/-
  The confusion-matrix update as one function of the argument arrays.

  There are 8388608 samples; sample n carries a target label T n and a predicted label P n (32-bit words read as signed
  integers). Cell (t, p) of the result is the caller's matrix entry plus the number of samples whose target label is t
  and whose predicted label is p. A count is a sum of ones over the samples that hit the cell, so a count over a stretch
  of samples splits into the counts over its two halves, and the counts over consecutive equal chunks add up to the count
  over their union: both are regroupings of one finite sum, which holds on the extended reals with no finiteness needed.
-/
import Idealize.ShloMosaic.PureOps.Ideal
import Idealize.ShloMosaic.Lib.ValueIdx

noncomputable section

namespace Cert.Hist

open Idealize.ShloMosaic Idealize.ShloMosaic.ValueIdx
open scoped BigOperators

/-- Sample n's contribution to the cell (t, p): one when its target label is t and its predicted label is p, zero
    otherwise (and zero past the last sample). -/
def hit (T P : IVec ⟨1, ![8388608]⟩ 32) (t p n : ℕ) : EReal :=
  if h : n < 8388608 then
    (if (T (ix1 ⟨n, h⟩)).toInt = (t : ℤ) ∧ (P (ix1 ⟨n, h⟩)).toInt = (p : ℤ) then 1 else 0)
  else 0

/-- The number of samples among a, a + 1, …, a + len - 1 that hit the cell (t, p). -/
def cnt (T P : IVec ⟨1, ![8388608]⟩ 32) (t p a len : ℕ) : EReal :=
  ∑ j ∈ Finset.range len, hit T P t p (a + j)

theorem cnt_zero (T P : IVec ⟨1, ![8388608]⟩ 32) (t p a : ℕ) : cnt T P t p a 0 = 0 := by
  simp [cnt]

/-- A stretch of samples splits in two. -/
theorem cnt_add (T P : IVec ⟨1, ![8388608]⟩ 32) (t p a l₁ l₂ : ℕ) :
    cnt T P t p a (l₁ + l₂) = cnt T P t p a l₁ + cnt T P t p (a + l₁) l₂ := by
  unfold cnt
  rw [Finset.sum_range_add]
  simp only [Nat.add_assoc]

/-- One more chunk of B samples after A chunks. -/
theorem cnt_chunks_succ (T P : IVec ⟨1, ![8388608]⟩ 32) (t p a A B : ℕ) :
    cnt T P t p a (A * B) + cnt T P t p (a + A * B) B = cnt T P t p a ((A + 1) * B) := by
  rw [Nat.add_mul, Nat.one_mul, cnt_add]

/-- A chunks of B consecutive samples each make one stretch of A · B samples. -/
theorem sum_cnt_chunks (T P : IVec ⟨1, ![8388608]⟩ 32) (t p a A B : ℕ) :
    ∑ s ∈ Finset.range A, cnt T P t p (a + s * B) B = cnt T P t p a (A * B) := by
  induction A with
  | zero => simp [cnt_zero]
  | succ A ih => rw [Finset.sum_range_succ, ih, cnt_chunks_succ]

/-- The result: the caller's matrix plus the count of every cell over all samples. -/
def G (cm : (⟨2, ![150, 150]⟩ : Shape).Idx → EReal) (P T : IVec ⟨1, ![8388608]⟩ 32) :
    (⟨2, ![150, 150]⟩ : Shape).Idx → EReal :=
  fun i => cm i + cnt T P (i 0).val (i 1).val 0 8388608

/-- The two halves of the samples, added one after the other onto the caller's matrix, give the result. -/
theorem G_halves (cm : (⟨2, ![150, 150]⟩ : Shape).Idx → EReal) (P T : IVec ⟨1, ![8388608]⟩ 32)
    (i : (⟨2, ![150, 150]⟩ : Shape).Idx) :
    (cm i + cnt T P (i 0).val (i 1).val 0 4194304) + cnt T P (i 0).val (i 1).val 4194304 4194304 = G cm P T i := by
  unfold G
  rw [show (8388608 : ℕ) = 4194304 + 4194304 from rfl, cnt_add, Nat.zero_add, add_assoc]

end Cert.Hist

end
-- ==== Proof.PayAt.lean ====
/-
  The kernel body's arithmetic, read at one cell.

  One trip of the body's loop takes a chunk of 8192 target labels and 8192 predicted labels. For every class r < 160 it
  forms the indicator row "label = r" over the chunk (the label and the class number both converted exactly to reals, so
  the comparison is equality of integers), and multiplies the two indicator matrices along the chunk: cell (r, q) of the
  product is the number of samples of the chunk with target r and prediction q. The trip adds that product onto the
  scratch it found.
-/
import proofs.«405786_j24532853194784_2_alg».proof.Proof.Gen.KernelIdeal.Skeleton
import proofs.«405786_j24532853194784_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Hist.Pay

open Idealize.ShloMosaic Idealize.ShloMosaic.ValueIdx Cert.KernelIdeal Cert.KernelIdeal.Gen
open scoped BigOperators

/-- One label against one class number: one when the label, read as a signed integer, is the class number. -/
def oh (w : BitVec 32) (r : ℕ) : EReal := if w.toInt = (r : ℤ) then 1 else 0

/-- A sample is counted in cell (r, q) exactly when both its labels match. -/
theorem oh_mul (a b : BitVec 32) (r q : ℕ) :
    oh a r * oh b q = if a.toInt = (r : ℤ) ∧ b.toInt = (q : ℤ) then 1 else 0 := by
  unfold oh
  by_cases h1 : a.toInt = (r : ℤ) <;> by_cases h2 : b.toInt = (q : ℤ) <;> simp [h1, h2]

/-- The zero fill of the scratch. -/
theorem k0_pay1_apply (j : S160x160.Idx) : k0_pay1 (F := Ideal) j = 0 := by
  unfold k0_pay1
  rw [shapeCast_self]
  exact Ideal.ofBits_zero_f32

/-! ## One entry of an indicator matrix -/

/-- A column copied along the rows reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 32-bit word of a class number below 160 reads back, signed, as that number. -/
theorem word_toInt (r : Fin 160) : (BitVec.ofNat 32 r.val).toInt = (r.val : ℤ) := by
  have := r.isLt
  have e := BitVec.toInt_eq_toNat_cond (BitVec.ofNat 32 r.val)
  rw [BitVec.toNat_ofNat] at e
  omega

/-- Two integers read as reals are equal exactly when the integers are; so the comparison's bit, widened to a word and
    read back as a real, is one when they are equal and zero otherwise. -/
theorem ind_scalar (w : BitVec 32) (m : ℤ) :
    ((((Ideal.cmp .oeq ((w.toInt : ℝ) : EReal) ((m : ℝ) : EReal)).setWidth 32).toInt : ℝ) : EReal)
      = if w.toInt = m then 1 else 0 := by
  unfold Ideal.cmp
  by_cases h : w.toInt = m
  · simp [h]
  · have h' : ¬ (((w.toInt : ℝ) : EReal) = ((m : ℝ) : EReal)) := by
      rw [EReal.coe_eq_coe_iff, Int.cast_inj]; exact h
    simp [h, h']

/-- The indicator matrix of a chunk of labels: entry (r, l) is one when label l is the class number r. The row of labels
    is copied down the 160 rows, the column of class numbers along the 8192 columns, and the two are compared entry by
    entry. -/
theorem ind_apply (x : IVec S1x8192 32) (h1 : S1x8192.ShapeCasts S1x8192) (h2 : S1x8192.Broadcasts S160x8192)
    (h3 : S160x1.Iotas .tc 32 [0]) (h4 : S160x1.Broadcasts S160x8192) (h5 : 1 < 32)
    (h6 : FTy.bits .bf16 < FTy.bits .f32) (r : Fin 160) (l : Fin 8192) :
    (truncf .bf16 (sitofp .f32 (extui 32 (cmpf .oeq
        (broadcastTo S160x8192 (sitofp .bf16 (shapeCast S1x8192 x h1) : FVec Ideal S1x8192 .bf16) h2)
        (broadcastTo S160x8192 (sitofp .bf16 (iota .tc S160x1 32 [0] h3) : FVec Ideal S160x1 .bf16) h4)) h5)
          : FVec Ideal S160x8192 .f32) h6 : FVec Ideal S160x8192 .bf16) (ix2 r l)
      = oh (x (ix2 (0 : Fin 1) l)) r.val := by
  rw [truncf_apply, sitofp_apply, extui_apply, cmpf_apply, broadcastTo_1b_ab_apply, broadcastTo_a1_ab_apply,
    sitofp_apply, sitofp_apply, shapeCast_self, iota_single_apply]
  show ((((Ideal.cmp .oeq (((x (ix2 (0 : Fin 1) l)).toInt : ℝ) : EReal)
      (((BitVec.ofNat 32 r.val).toInt : ℝ) : EReal)).setWidth 32).toInt : ℝ) : EReal) = _
  rw [ind_scalar, word_toInt]
  rfl

/-! ## The product's index bookkeeping

Both factors are 160 × 8192 and both are summed over their second axis: cell (r, q) of the product pairs row r of the
first factor with row q of the second, position by position along the chunk. -/

/-- The summation index of the product is one coordinate running over the 8192 positions of the chunk. -/
def ce : (dot_S160x8192_S160x8192_S160x160_1_1_0_0_n_n).contr.Idx ≃ Fin 8192 :=
  contrEquiv1 dot_S160x8192_S160x8192_S160x160_1_1_0_0_n_n 8192 rfl rfl

/-- The first factor is read in row r … -/
theorem lhs_ax0 (r q : Fin 160) (l : Fin 8192) :
    ((dot_S160x8192_S160x8192_S160x160_1_1_0_0_n_n).lhsIdx (ix2 r q) (ce.symm l) 0).val = r.val := by
  simp [DotDims.lhsIdx, dot_S160x8192_S160x8192_S160x160_1_1_0_0_n_n]; rfl

/-- … at position l; -/
theorem lhs_ax1 (r q : Fin 160) (l : Fin 8192) :
    ((dot_S160x8192_S160x8192_S160x160_1_1_0_0_n_n).lhsIdx (ix2 r q) (ce.symm l) 1).val = l.val := by
  simp [DotDims.lhsIdx, dot_S160x8192_S160x8192_S160x160_1_1_0_0_n_n]
  exact contrEquiv1_symm_val dot_S160x8192_S160x8192_S160x160_1_1_0_0_n_n 8192 rfl rfl l

/-- the second factor in row q … -/
theorem rhs_ax0 (r q : Fin 160) (l : Fin 8192) :
    ((dot_S160x8192_S160x8192_S160x160_1_1_0_0_n_n).rhsIdx (ix2 r q) (ce.symm l) 0).val = q.val := by
  simp [DotDims.rhsIdx, dot_S160x8192_S160x8192_S160x160_1_1_0_0_n_n]; rfl

/-- … at the same position l. -/
theorem rhs_ax1 (r q : Fin 160) (l : Fin 8192) :
    ((dot_S160x8192_S160x8192_S160x160_1_1_0_0_n_n).rhsIdx (ix2 r q) (ce.symm l) 1).val = l.val := by
  simp [DotDims.rhsIdx, dot_S160x8192_S160x8192_S160x160_1_1_0_0_n_n]
  exact contrEquiv1_symm_val dot_S160x8192_S160x8192_S160x160_1_1_0_0_n_n 8192 rfl rfl l

/-- The first factor's entry met at position l of cell (r, q) is its entry (r, l). -/
theorem lhs_eq (r q : Fin 160) (l : Fin 8192) :
    (dot_S160x8192_S160x8192_S160x160_1_1_0_0_n_n).lhsIdx (ix2 r q) (ce.symm l) = ix2 r l := by
  funext ax; apply Fin.ext
  match ax with
  | ⟨0, _⟩ => exact lhs_ax0 r q l
  | ⟨1, _⟩ => exact lhs_ax1 r q l

/-- The second factor's entry met at position l of cell (r, q) is its entry (q, l). -/
theorem rhs_eq (r q : Fin 160) (l : Fin 8192) :
    (dot_S160x8192_S160x8192_S160x160_1_1_0_0_n_n).rhsIdx (ix2 r q) (ce.symm l) = ix2 q l := by
  funext ax; apply Fin.ext
  match ax with
  | ⟨0, _⟩ => exact rhs_ax0 r q l
  | ⟨1, _⟩ => exact rhs_ax1 r q l

/-- One trip: the scratch found, plus the chunk's count in every cell. -/
theorem k0_pay2_apply (a b : Vec Ideal S1x8192 .i32) (g : Vec Ideal S160x160 .f32) (r q : Fin 160) :
    k0_pay2 (F := Ideal) a b g (ix2 r q)
      = g (ix2 r q) + ∑ l : Fin 8192, oh (a (ix2 (0 : Fin 1) l)) r.val * oh (b (ix2 (0 : Fin 1) l)) q.val := by
  unfold k0_pay2
  dsimp only
  rw [shapeCast_self, addf_apply]
  refine congrArg (fun z => g (ix2 r q) + z) ?_
  simp only [matmul]
  rw [Ideal.matmul_constant_zero_apply, ← Equiv.sum_comp ce.symm]
  refine Finset.sum_congr rfl fun l _ => ?_
  rw [lhs_eq, rhs_eq, ind_apply, ind_apply]

/-- The output block is the 150 × 150 scratch corner with a leading axis of extent one. -/
theorem k0_pay3_apply (v : Vec Ideal S150x150 .f32) (r q : Fin 150) :
    k0_pay3 (F := Ideal) v (ix3 (0 : Fin 1) r q) = v (ix2 r q) := by
  unfold k0_pay3
  refine (shapeCast_addUnit_apply ![150, 150] v _ (ix3 (0 : Fin 1) r q)).trans ?_
  refine congrArg v (funext fun a => ?_)
  match a with
  | ⟨0, _⟩ => rfl
  | ⟨1, _⟩ => rfl

end Cert.Hist.Pay

end
-- ==== Proof.KernelValue.lean ====
/-
  The scratch and the output block, point by point, as counts of samples.

  Grid point t (0 … 31) stages samples t · 262144 … t · 262144 + 262143 of each label array; trip s of its loop reads
  the 8192 of them from offset s · 8192 on. So one trip adds, in cell (r, q), the count of its 8192 samples, the 32 trips
  of a point the count of the point's 262144 samples, and the 16 points of a half — the first of them starting from
  zero — the count of the half's 4194304 samples, which the half's last point copies out for the cells with r, q < 150.
-/
import proofs.«405786_j24532853194784_2_alg».proof.Proof.KernelCases
import proofs.«405786_j24532853194784_2_alg».proof.Proof.PayAt
import proofs.«405786_j24532853194784_2_alg».proof.Proof.Spec
import Idealize.ShloMosaic.Lib.StableHlo.Run

set_option maxRecDepth 65536

noncomputable section

namespace Cert.Hist.KV

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen Cert.Hist.Loop Cert.Hist.Pay
open scoped BigOperators

variable (m : (ℓ : Loc nD τ sig) → Buf (Elt Ideal) ℓ)

/-- The target labels and the predicted labels on core c. -/
abbrev Tl (c : Dev nD) : IVec S8388608 32 := m ((c : Thread nD τ).loc main_arg2)
abbrev Pl (c : Dev nD) : IVec S8388608 32 := m ((c : Thread nD τ).loc main_arg1)

/-- The grid has 32 points; point t's label blocks are block t of the row vectors, the output's block is the half t / 16. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0 :=
  (by decide +kernel : ∀ t : Fin grid0.N, _)

/-! ## The staged blocks and the chunks, element by element -/

/-- The region finds the target labels laid out as one row. -/
theorem V_v1 (c : Dev nD) :
    (V m c main_v1 : S1x8388608.Idx → BitVec 32) = shapeCast S1x8388608 (Tl m c) shapeCasts_S8388608_S1x8388608 := by
  show StableHlo.after hostOps0 (fun b => m (c, b)) (Proc.devRef .tc main_v1) = _
  after_results
  rfl

/-- And the predicted labels likewise. -/
theorem V_v0 (c : Dev nD) :
    (V m c main_v0 : S1x8388608.Idx → BitVec 32) = shapeCast S1x8388608 (Pl m c) shapeCasts_S8388608_S1x8388608 := by
  show StableHlo.after hostOps0 (fun b => m (c, b)) (Proc.devRef .tc main_v0) = _
  after_results
  rfl

/-- Element j of the row is label j. -/
theorem row_apply (X : IVec S8388608 32) (j : Fin 8388608) :
    shapeCast S1x8388608 X shapeCasts_S8388608_S1x8388608 (ix2 (0 : Fin 1) j) = X (ix1 j) :=
  shapeCast_apply X shapeCasts_S8388608_S1x8388608 (ix2 (0 : Fin 1) j) (ix1 j)
    (by rewrite [Shape.rowMajor_val_one, Shape.rowMajor_val_two]; show j.val = 0 * 8388608 + j.val; omega)

theorem pt_lt (t : Fin cfg0.N) (y : Fin 262144) : t.val * 262144 + y.val < 8388608 := by
  have hN : t.val < 32 := lt_of_lt_of_eq t.isLt (show cfg0.N = 32 from N_0)
  have := y.isLt; omega

/-- Element y of point t's target block is target label t · 262144 + y. -/
theorem iblk0_apply (c : Dev nD) (t : Fin cfg0.N) (y : Fin 262144) :
    (iblk m c 0 t : Vec Ideal S1x262144 .i32) (ix2 (0 : Fin 1) y) = Tl m c (ix1 ⟨t.val * 262144 + y.val, pt_lt t y⟩) := by
  obtain ⟨e0, e1, -⟩ := idx_facts t
  show V m c main_v1 (((cfg0.win 0).blk t).view.emb (ix2 (0 : Fin 1) y)) = _
  have e : ((cfg0.win 0).blk t).view.emb (ix2 (0 : Fin 1) y)
      = ix2 (0 : Fin 1) (⟨t.val * 262144 + y.val, pt_lt t y⟩ : Fin 8388608) := by
    funext a; apply Fin.ext
    match a with
    | ⟨0, _⟩ => show win0_0.index t (0 : Fin 2) * 1 + 1 * 0 = 0; omega
    | ⟨1, _⟩ => show win0_0.index t (1 : Fin 2) * 262144 + 1 * y.val = t.val * 262144 + y.val; omega
  rw [V_v1, e]
  exact row_apply _ _

/-- Element y of point t's prediction block is predicted label t · 262144 + y. -/
theorem iblk1_apply (c : Dev nD) (t : Fin cfg0.N) (y : Fin 262144) :
    (iblk m c 1 t : Vec Ideal S1x262144 .i32) (ix2 (0 : Fin 1) y) = Pl m c (ix1 ⟨t.val * 262144 + y.val, pt_lt t y⟩) := by
  obtain ⟨-, -, e0, e1, -⟩ := idx_facts t
  show V m c main_v0 (((cfg0.win 1).blk t).view.emb (ix2 (0 : Fin 1) y)) = _
  have e : ((cfg0.win 1).blk t).view.emb (ix2 (0 : Fin 1) y)
      = ix2 (0 : Fin 1) (⟨t.val * 262144 + y.val, pt_lt t y⟩ : Fin 8388608) := by
    funext a; apply Fin.ext
    match a with
    | ⟨0, _⟩ => show win0_1.index t (0 : Fin 2) * 1 + 1 * 0 = 0; omega
    | ⟨1, _⟩ => show win0_1.index t (1 : Fin 2) * 262144 + 1 * y.val = t.val * 262144 + y.val; omega
  rw [V_v0, e]
  exact row_apply _ _

theorem ch_lt (k : Fin k0_t1_loop.trips) (l : Fin 8192) : 8192 * k.val + l.val < 262144 := by
  have hk : k.val < 32 := lt_of_lt_of_eq k.isLt trips_eq
  have := l.isLt; omega

/-- Element l of chunk k of a staged block is the block's element 8192 · k + l. -/
theorem chunk_apply (arg : Memref sig .tc .vmem S1x262144 .i32) (harg : arg.IsWhole) (x : Vec Ideal S1x262144 .i32)
    (k : Fin k0_t1_loop.trips) (l : Fin 8192) :
    chunk (F := Ideal) arg (harg.unread x) k (ix2 (0 : Fin 1) l) = x (ix2 (0 : Fin 1) ⟨8192 * k.val + l.val, ch_lt k l⟩) := by
  unfold chunk
  rw [View.readAt_eq_ld, harg.read_unread]
  show x ((Rect.unit (s := S1x262144) (k0_off1 k) S1x8192.size (k0_off1_inb k)).emb (ix2 (0 : Fin 1) l)) = _
  congr 1
  funext a; apply Fin.ext
  match a with
  | ⟨0, _⟩ => show k0_off1 k 0 + 1 * 0 = 0; rw [k0_off1_eq]; rfl
  | ⟨1, _⟩ => show k0_off1 k 1 + 1 * l.val = 8192 * k.val + l.val; rw [k0_off1_eq]; show 8192 * k.val + 1 * l.val = _; omega

/-! ## The iterate at a cell -/

section Iter

variable (arg2 arg3 : Memref sig .tc .vmem S1x262144 .i32)
  (X2 : BufTy.Contents (Elt Ideal) arg2.view.ty) (X3 : BufTy.Contents (Elt Ideal) arg3.view.ty)

/-- What trip s adds in cell (r, q): the number of samples of its chunk with target r and prediction q. -/
def term (r q s : ℕ) : EReal :=
  if h : s < k0_t1_loop.trips then
    ∑ l : Fin 8192, oh (chunk (F := Ideal) arg2 X2 ⟨s, h⟩ (ix2 (0 : Fin 1) l)) r * oh (chunk (F := Ideal) arg3 X3 ⟨s, h⟩ (ix2 (0 : Fin 1) l)) q
  else 0

/-- After k trips a cell holds what the loop found there plus what the trips added. -/
theorem accum_apply (k : ℕ) (hk : k ≤ k0_t1_loop.trips) (g : Vec Ideal S160x160 .f32) (r q : Fin 160) :
    accum (F := Ideal) arg2 arg3 X2 X3 k g (ix2 r q) = g (ix2 r q) + ∑ s ∈ Finset.range k, term arg2 arg3 X2 X3 r.val q.val s := by
  induction k with
  | zero => simp [accum]
  | succ k ih =>
    have hk' : k < k0_t1_loop.trips := hk
    rw [accum_succ arg2 arg3 X2 X3 ⟨k, hk'⟩ g, k0_pay2_apply, ih (Nat.le_of_lt hk'), Finset.sum_range_succ, add_assoc]
    congr 2
    unfold term
    rw [dif_pos hk']

end Iter

/-- At grid point t, trip s adds the count over the trip's 8192 samples. -/
theorem term_pt (c : Dev nD) (t : Fin cfg0.N) (arg2 arg3 : Memref sig .tc .vmem S1x262144 .i32) (harg2 : arg2.IsWhole) (harg3 : arg3.IsWhole)
    (r q s : ℕ) (hs : s < k0_t1_loop.trips) :
    term arg2 arg3 (harg2.unread (iblk m c 0 t)) (harg3.unread (iblk m c 1 t)) r q s
      = cnt (Tl m c) (Pl m c) r q (t.val * 262144 + s * 8192) 8192 := by
  unfold term cnt
  rw [dif_pos hs, ← Fin.sum_univ_eq_sum_range (fun j => hit (Tl m c) (Pl m c) r q (t.val * 262144 + s * 8192 + j)) 8192]
  refine Finset.sum_congr rfl fun l _ => ?_
  rw [chunk_apply arg2 harg2, chunk_apply arg3 harg3, iblk0_apply, iblk1_apply, oh_mul]
  have hlt : t.val * 262144 + s * 8192 + l.val < 8388608 := by
    have hN : t.val < 32 := lt_of_lt_of_eq t.isLt (show cfg0.N = 32 from N_0)
    have hs' : s < 32 := lt_of_lt_of_eq hs trips_eq
    have := l.isLt; omega
  unfold hit
  rw [dif_pos hlt]
  have e : (⟨t.val * 262144 + (8192 * s + l.val), pt_lt t ⟨8192 * s + l.val, ch_lt ⟨s, hs⟩ l⟩⟩ : Fin 8388608)
      = ⟨t.val * 262144 + s * 8192 + l.val, hlt⟩ := Fin.ext (by simp only [Fin.val_mk]; omega)
  show (if (Tl m c (ix1 ⟨t.val * 262144 + (8192 * s + l.val), _⟩)).toInt = (r : ℤ) ∧ (Pl m c (ix1 ⟨t.val * 262144 + (8192 * s + l.val), _⟩)).toInt = (q : ℤ) then (1 : EReal) else 0) = _
  rw [e]

/-- THE POINT's loop adds to a cell the count over the point's 262144 samples. -/
theorem trips_chunks : k0_t1_loop.trips * 8192 = 262144 := by
  have h32 : k0_t1_loop.trips = 32 := trips_eq
  omega

/-- The 32 trips of a point add, chunk after chunk, the count over the point's 262144 samples. -/
theorem sum_term_pt (c : Dev nD) (t : Fin cfg0.N) (arg2 arg3 : Memref sig .tc .vmem S1x262144 .i32) (harg2 : arg2.IsWhole) (harg3 : arg3.IsWhole)
    (r q : ℕ) :
    ∑ s ∈ Finset.range k0_t1_loop.trips, term arg2 arg3 (harg2.unread (iblk m c 0 t)) (harg3.unread (iblk m c 1 t)) r q s
      = cnt (Tl m c) (Pl m c) r q (t.val * 262144) 262144 := by
  rw [Finset.sum_congr rfl (fun s hs => term_pt m c t arg2 arg3 harg2 harg3 r q s (Finset.mem_range.mp hs)),
    sum_cnt_chunks, trips_chunks]

theorem accum_pt (c : Dev nD) (t : Fin cfg0.N) (arg2 arg3 : Memref sig .tc .vmem S1x262144 .i32) (harg2 : arg2.IsWhole) (harg3 : arg3.IsWhole)
    (g : Vec Ideal S160x160 .f32) (r q : Fin 160) :
    accum (F := Ideal) arg2 arg3 (harg2.unread (iblk m c 0 t)) (harg3.unread (iblk m c 1 t)) k0_t1_loop.trips g (ix2 r q)
      = g (ix2 r q) + cnt (Tl m c) (Pl m c) r.val q.val (t.val * 262144) 262144 :=
  (accum_apply arg2 arg3 (harg2.unread (iblk m c 0 t)) (harg3.unread (iblk m c 1 t)) k0_t1_loop.trips (le_refl _) g r q).trans
    (congrArg (fun x => g (ix2 r q) + x) (sum_term_pt m c t arg2 arg3 harg2 harg3 r.val q.val))

theorem it_apply (c : Dev nD) (t : Fin cfg0.N) (arg2 arg3 : Memref sig .tc .vmem S1x262144 .i32) (harg2 : arg2.IsWhole) (harg3 : arg3.IsWhole)
    (g : Vec Ideal S160x160 .f32) (r q : Fin 160) :
    it (F := Ideal) arg2 harg2 arg3 harg3 (iblk m c 0 t) (iblk m c 1 t) g (ix2 r q)
      = g (ix2 r q) + cnt (Tl m c) (Pl m c) r.val q.val (t.val * 262144) 262144 :=
  accum_pt m c t arg2 arg3 harg2 harg3 g r q

end Cert.Hist.KV

end
-- ==== Proof.KernelGrid.lean ====
/-
  From grid points to the output array.

  The scratch after point n holds, in cell (r, q), the count over the samples of the points n - n % 16 … n: the points of
  n's half so far. By induction on n: a point that opens a half starts from zero, every other point adds its own 262144
  samples to what the point before left, and a stretch of samples followed by the next stretch is one longer stretch.
  The point closing half h (n = 16 h + 15) copies the cells with r, q < 150 into block h of the output array, and the
  pipeline writes that block back; the two halves' blocks tile the [2, 150, 150] array. So the array ends holding, at
  (h, r, q), the count of cell (r, q) over the 4194304 samples of half h.
-/
import proofs.«405786_j24532853194784_2_alg».proof.Proof.KernelValue

set_option maxRecDepth 65536

noncomputable section

namespace Cert.Hist.KV

open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)
open Cert.KernelIdeal Cert.KernelIdeal.Gen Cert.Hist.Loop Cert.Hist.Pay
open scoped BigOperators

/-! ## Where a point's samples sit in its half (arithmetic of 16 points of 262144 samples per half of 4194304) -/

theorem ar_open (n : ℕ) (h0 : n % 16 = 0) :
    n * 262144 = n / 16 * 4194304 ∧ (n % 16 + 1) * 262144 = 262144 := by omega

theorem ar_next (n : ℕ) (h0 : ¬(n + 1) % 16 = 0) :
    (n + 1) * 262144 = n / 16 * 4194304 + (n % 16 + 1) * 262144
      ∧ ((n + 1) % 16 + 1) * 262144 = (n % 16 + 1) * 262144 + 262144
      ∧ (n + 1) / 16 * 4194304 = n / 16 * 4194304 := by omega

theorem ar_close (t : ℕ) (h1 : t % 16 = 15) :
    (t - 1) / 16 * 4194304 = t / 16 * 4194304 ∧ ((t - 1) % 16 + 1) * 262144 = 3932160
      ∧ t * 262144 = t / 16 * 4194304 + 3932160 ∧ 3932160 + 262144 = 4194304 := by omega

variable (m : (ℓ : Loc nD τ sig) → Buf (Elt Ideal) ℓ)

/-! ## One point, by case -/

/-- A point that opens a half leaves the count over its own samples. -/
theorem scr_A (c : Dev nD) (t : Fin cfg0.N) (h0 : t.val % 16 = 0) (h1 : ¬t.val % 16 = 15) (r q : Fin 160) :
    (outsAt0 m c t.val t.isLt).2 (ix2 r q) = cnt (Tl m c) (Pl m c) r.val q.val (t.val * 262144) 262144 := by
  rw [outsAt0_A m c t h0 h1]
  dsimp only
  refine (congrFun (sout_A (F := Ideal) c (grid0.coords t) (ms0_0 t) (hs0_0 t) (ms0_1 t) (hs0_1 t) (ms0_2 t) (hs0_2 t) scM0_0
    (Memref.isWhole_whole _) (iblk m c 0 t) (iblk m c 1 t) ((hcond0_0 t).mpr h0) (fun h => h1 ((hcond0_1 t).mp h))) (ix2 r q)).trans ?_
  rw [it_apply m c t (ms0_0 t) (ms0_1 t) (hs0_0 t) (hs0_1 t), k0_pay1_apply, zero_add]

/-- A point inside a half adds its own samples to what the point before left. -/
theorem scr_B (c : Dev nD) (t : Fin cfg0.N) (h0 : ¬t.val % 16 = 0) (h1 : ¬t.val % 16 = 15) (r q : Fin 160) :
    (outsAt0 m c t.val t.isLt).2 (ix2 r q)
      = (outsAt0 m c (t.val - 1) (Nat.lt_of_le_of_lt (Nat.sub_le _ _) t.isLt)).2 (ix2 r q)
        + cnt (Tl m c) (Pl m c) r.val q.val (t.val * 262144) 262144 := by
  rw [outsAt0_B m c t h0 h1]
  dsimp only
  refine (congrFun (sout_B (F := Ideal) c (grid0.coords t) (ms0_0 t) (hs0_0 t) (ms0_1 t) (hs0_1 t) (ms0_2 t) (hs0_2 t) scM0_0
    (Memref.isWhole_whole _) (iblk m c 0 t) (iblk m c 1 t) (fun h => h0 ((hcond0_0 t).mp h)) (fun h => h1 ((hcond0_1 t).mp h))
    (outsAt0 m c (t.val - 1) (Nat.lt_of_le_of_lt (Nat.sub_le _ _) t.isLt)).2) (ix2 r q)).trans ?_
  rw [it_apply m c t (ms0_0 t) (ms0_1 t) (hs0_0 t) (hs0_1 t)]

/-- So does the point that closes a half, -/
theorem scr_C (c : Dev nD) (t : Fin cfg0.N) (h0 : ¬t.val % 16 = 0) (h1 : t.val % 16 = 15) (r q : Fin 160) :
    (outsAt0 m c t.val t.isLt).2 (ix2 r q)
      = (outsAt0 m c (t.val - 1) (Nat.lt_of_le_of_lt (Nat.sub_le _ _) t.isLt)).2 (ix2 r q)
        + cnt (Tl m c) (Pl m c) r.val q.val (t.val * 262144) 262144 := by
  rw [outsAt0_C m c t h0 h1]
  dsimp only
  refine (congrFun (sout_C (F := Ideal) c (grid0.coords t) (ms0_0 t) (hs0_0 t) (ms0_1 t) (hs0_1 t) (ms0_2 t) (hs0_2 t) scM0_0
    (Memref.isWhole_whole _) (iblk m c 0 t) (iblk m c 1 t) (fun h => h0 ((hcond0_0 t).mp h)) ((hcond0_1 t).mpr h1)
    (outsAt0 m c (t.val - 1) (Nat.lt_of_le_of_lt (Nat.sub_le _ _) t.isLt)).2) (ix2 r q)).trans ?_
  rw [it_apply m c t (ms0_0 t) (ms0_1 t) (hs0_0 t) (hs0_1 t)]

/-- which also leaves, in the output block at (0, r, q) with r, q < 150, that same cell. -/
theorem blk_C (c : Dev nD) (t : Fin cfg0.N) (h0 : ¬t.val % 16 = 0) (h1 : t.val % 16 = 15) (r q : Fin 150) :
    (outsAt0 m c t.val t.isLt).1 (ix3 (0 : Fin 1) r q)
      = (outsAt0 m c (t.val - 1) (Nat.lt_of_le_of_lt (Nat.sub_le _ _) t.isLt)).2
          (ix2 (⟨r.val, by have := r.isLt; omega⟩ : Fin 160) (⟨q.val, by have := q.isLt; omega⟩ : Fin 160))
        + cnt (Tl m c) (Pl m c) r.val q.val (t.val * 262144) 262144 := by
  rw [outsAt0_C m c t h0 h1]
  dsimp only
  refine (congrFun (out_C (F := Ideal) c (grid0.coords t) (ms0_0 t) (hs0_0 t) (ms0_1 t) (hs0_1 t) (ms0_2 t) (hs0_2 t) scM0_0
    (Memref.isWhole_whole _) (iblk m c 0 t) (iblk m c 1 t) (fun h => h0 ((hcond0_0 t).mp h)) ((hcond0_1 t).mpr h1)
    (outsAt0 m c (t.val - 1) (Nat.lt_of_le_of_lt (Nat.sub_le _ _) t.isLt)).2) (ix3 (0 : Fin 1) r q)).trans ?_
  rw [k0_pay3_apply]
  have e : cornerR.emb (ix2 r q) = ix2 (⟨r.val, by have := r.isLt; omega⟩ : Fin 160) (⟨q.val, by have := q.isLt; omega⟩ : Fin 160) := by
    funext a; apply Fin.ext
    match a with
    | ⟨0, _⟩ => show 0 + 1 * r.val = r.val; omega
    | ⟨1, _⟩ => show 0 + 1 * q.val = q.val; omega
  show it (F := Ideal) (ms0_0 t) (hs0_0 t) (ms0_1 t) (hs0_1 t) (iblk m c 0 t) (iblk m c 1 t) _ (cornerR.emb (ix2 r q)) = _
  rw [e, it_apply m c t (ms0_0 t) (ms0_1 t) (hs0_0 t) (hs0_1 t)]

/-! ## All the points of a half -/

/-- The scratch after point n: the count over the samples of n's half up to and including point n. -/
theorem scr_inv (c : Dev nD) : ∀ (n : ℕ) (hn : n < cfg0.N) (r q : Fin 160),
    (outsAt0 m c n hn).2 (ix2 r q)
      = cnt (Tl m c) (Pl m c) r.val q.val (n / 16 * 4194304) ((n % 16 + 1) * 262144) := by
  intro n
  induction n with
  | zero =>
    intro hn r q
    exact (scr_A m c ⟨0, hn⟩ (Nat.zero_mod 16) (fun h => absurd ((Nat.zero_mod 16).symm.trans h) (by decide)) r q).trans (by simp)
  | succ n ih =>
    intro hn r q
    have hN : n + 1 < 32 := lt_of_lt_of_eq hn (show cfg0.N = 32 from N_0)
    by_cases h0 : (n + 1) % 16 = 0
    · have h1 : ¬(n + 1) % 16 = 15 := by omega
      refine (scr_A m c ⟨n + 1, hn⟩ h0 h1 r q).trans ?_
      obtain ⟨e1, e2⟩ := ar_open (n + 1) h0
      show cnt _ _ _ _ ((n + 1) * 262144) 262144 = _
      rw [e1, e2]
    · have hprev : (outsAt0 m c ((⟨n + 1, hn⟩ : Fin cfg0.N).val - 1) (Nat.lt_of_le_of_lt (Nat.sub_le _ _) (⟨n + 1, hn⟩ : Fin cfg0.N).isLt)).2 (ix2 r q)
          = cnt (Tl m c) (Pl m c) r.val q.val (n / 16 * 4194304) ((n % 16 + 1) * 262144) := ih (Nat.lt_of_succ_lt hn) r q
      obtain ⟨e1, e2, e3⟩ := ar_next n h0
      have step : (outsAt0 m c (n + 1) hn).2 (ix2 r q)
          = (outsAt0 m c ((⟨n + 1, hn⟩ : Fin cfg0.N).val - 1) (Nat.lt_of_le_of_lt (Nat.sub_le _ _) (⟨n + 1, hn⟩ : Fin cfg0.N).isLt)).2 (ix2 r q)
            + cnt (Tl m c) (Pl m c) r.val q.val ((n + 1) * 262144) 262144 := by
        by_cases h1 : (n + 1) % 16 = 15
        · exact scr_C m c ⟨n + 1, hn⟩ h0 h1 r q
        · exact scr_B m c ⟨n + 1, hn⟩ h0 h1 r q
      rw [step, hprev, e1, e2, e3, cnt_add]

/-! ## The output array -/

/-- What the output array ends holding: at (h, r, q) the count of cell (r, q) over half h of the samples. -/
def Gout (c : Dev nD) : S2x150x150.Idx → EReal :=
  fun i => cnt (Tl m c) (Pl m c) (i 1).val (i 2).val ((i 0).val * 4194304) 4194304

/-- The output's block is written back exactly after the points that close a half. -/
theorem flush2_iff : ∀ t : Fin cfg0.N, (cfg0.win 2).flush t = true ↔ t.val % 16 = 15 :=
  (by decide +kernel : ∀ t : Fin grid0.N, _)

/-- The block a closing point leaves, over the literal block shape: at each index of the block, `Gout` at the place of
    the array where the point's block puts that index (half t / 16, the same row and column). -/
theorem blk_eq (c : Dev nD) (t : Fin cfg0.N) (h0 : ¬t.val % 16 = 0) (h1 : t.val % 16 = 15) :
    (outsAt0 m c t.val t.isLt).1
      = fun (j : S1x150x150.Idx) => Gout m c (((cfg0.win 2).blk t).view.emb j) := by
  funext j
  obtain ⟨z, r, q, rfl⟩ : ∃ (z : Fin 1) (r : Fin 150) (q : Fin 150), j = ix3 z r q := ⟨j 0, j 1, j 2, eq_ix3 j⟩
  obtain rfl : z = 0 := Subsingleton.elim _ _
  have hh : t.val / 16 < 2 := Nat.div_lt_of_lt_mul (lt_of_lt_of_eq t.isLt (show cfg0.N = 2 * 16 from N_0))
  obtain ⟨-, -, -, -, e0, e1, e2⟩ := idx_facts t
  have e : ((cfg0.win 2).blk t).view.emb (ix3 (0 : Fin 1) r q) = ix3 (⟨t.val / 16, hh⟩ : Fin 2) r q := by
    funext a; apply Fin.ext
    match a with
    | ⟨0, _⟩ => show win0_2.index t (0 : Fin 3) * 1 + 1 * 0 = t.val / 16; omega
    | ⟨1, _⟩ => show win0_2.index t (1 : Fin 3) * 150 + 1 * r.val = r.val; omega
    | ⟨2, _⟩ => show win0_2.index t (2 : Fin 3) * 150 + 1 * q.val = q.val; omega
  show (outsAt0 m c t.val t.isLt).1 (ix3 (0 : Fin 1) r q) = Gout m c (((cfg0.win 2).blk t).view.emb (ix3 (0 : Fin 1) r q))
  rw [e]
  show _ = cnt (Tl m c) (Pl m c) r.val q.val (t.val / 16 * 4194304) 4194304
  have ht1 : t.val - 1 < cfg0.N := Nat.lt_of_le_of_lt (Nat.sub_le _ _) t.isLt
  obtain ⟨a1, a2, a3, a4⟩ := ar_close t.val h1
  rw [blk_C m c t h0 h1 r q, scr_inv m c (t.val - 1) ht1, a1, a2, a3, ← cnt_add, a4]

/-- WHAT A CLOSING POINT WRITES BACK is its half's block of `Gout`: the block the point leaves holds `Gout` at the
    block's places in the array, which is what reading `Gout` through the block means. -/
theorem flushed2_eq (c : Dev nD) (t : Fin cfg0.N) (hf : (cfg0.win 2).flush t = true) :
    (dats m 0 c).flushed 2 t = ((cfg0.win 2).blk t).view.read (Elt Ideal) (Gout m c) := by
  have h1 : t.val % 16 = 15 := (flush2_iff t).mp hf
  have h0 : ¬t.val % 16 = 0 := fun h => absurd (h.symm.trans h1) (by decide)
  show (cfg0.win 2).cut (grid0.coords t) ((dats m 0 c).after 2 t) = _
  rw [after0_2, blk_eq m c t h0 h1]
  generalize Gout m c = Gf
  funext j
  rw [View.read_apply, cast_eq]

/-- An index of the array is in point t's block iff each coordinate is in the block's range on its axis. -/
theorem mem_blk2 (t : Fin cfg0.N) (i : S2x150x150.Idx) :
    i ∈ ((cfg0.win 2).blk t).view.set ↔ ∀ a : Fin 3, win0_2.index t a * S1x150x150.size a ≤ (i a).val
      ∧ (i a).val < win0_2.index t a * S1x150x150.size a + S1x150x150.size a := by
  show i ∈ ((View.whole main_v2).slice (win0_2.rect t)).set ↔ _
  rw [View.set_slice_whole, Rect.mem_set_unit]
  exact Iff.rfl

/-- The two closing points' blocks cover the array. -/
theorem cover2 (i : S2x150x150.Idx) :
    ∃ t : Fin cfg0.N, (cfg0.win 2).flush t = true ∧ i ∈ ((cfg0.win 2).blk t).view.set := by
  have hi0 : (i 0).val < 2 := (i 0).isLt
  have hi1 : (i 1).val < 150 := (i 1).isLt
  have hi2 : (i 2).val < 150 := (i 2).isLt
  have hN : cfg0.N = 32 := N_0
  have ht : 16 * (i 0).val + 15 < cfg0.N := by omega
  refine ⟨⟨16 * (i 0).val + 15, ht⟩, (flush2_iff _).mpr (by show (16 * (i 0).val + 15) % 16 = 15; omega), ?_⟩
  obtain ⟨-, -, -, -, e0, e1, e2⟩ := idx_facts ⟨16 * (i 0).val + 15, ht⟩
  have e0' : win0_2.index ⟨16 * (i 0).val + 15, ht⟩ (0 : Fin 3) = (i 0).val := by
    rw [e0]; show (16 * (i 0).val + 15) / 16 = (i 0).val; omega
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 150 ≤ (i 1).val ∧ (i 1).val < win0_2.index _ (1 : Fin 3) * 150 + 150; omega
  | ⟨2, _⟩ => show win0_2.index _ (2 : Fin 3) * 150 ≤ (i 2).val ∧ (i 2).val < win0_2.index _ (2 : Fin 3) * 150 + 150; omega

/-- THE OUTPUT ARRAY after the run holds every half's counts. -/
theorem final2 (c : Dev nD) : (dats m 0 c).arrAt 2 cfg0.N = Gout m c :=
  (dats m 0 c).arrAt_eq_of_cover 2 (Gout m c) (fun t ht => flushed2_eq m c t ht) (cover2)

end Cert.Hist.KV

end
-- ==== Proof.KernelRun.lean ====
/-
  The idealized kernel's program ends with the specification's result.

  After the region the host takes the two halves' blocks of the output array, drops their leading axis, and adds them one
  after the other onto the caller's matrix: cell (r, q) ends at (caller's entry + count over the first half) + count over
  the second half, which is the caller's entry plus the count over all samples.
-/
import proofs.«405786_j24532853194784_2_alg».proof.Proof.KernelGrid

set_option maxRecDepth 65536

noncomputable section

namespace Cert.Hist.KV

open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)
open Cert.KernelIdeal Cert.KernelIdeal.Gen Cert.Hist.Loop Cert.Hist.Pay

variable (m : (ℓ : Loc nD τ sig) → Buf (Elt Ideal) ℓ) (ρ : Dev nD → PrngReg)

/-- The first half's block with its leading axis dropped, at (r, q), is the array at (0, r, q). -/
theorem half0_apply (X : S2x150x150.Idx → EReal) (r q : Fin 150) :
    shapeCast S150x150 (extractStridedSlice S1x150x150 ![0, 0, 0] X slices_S2x150x150_S1x150x150_0_0_0)
      shapeCasts_S1x150x150_S150x150 (ix2 r q) = X (ix3 (0 : Fin 2) r q) := by
  rw [shapeCast_apply _ shapeCasts_S1x150x150_S150x150 (ix2 r q) (ix3 (0 : Fin 1) r q)
    (by rewrite [Shape.rowMajor_val_three, Shape.rowMajor_val_two]; show (0 * 150 + r.val) * 150 + q.val = r.val * 150 + q.val; omega)]
  exact extractStridedSlice_apply _ X _ (ix3 (0 : Fin 1) r q) (ix3 (0 : Fin 2) r q) (fun a => by
    match a with
    | ⟨0, _⟩ => show 0 = 0 + 0; rfl
    | ⟨1, _⟩ => show r.val = 0 + r.val; omega
    | ⟨2, _⟩ => show q.val = 0 + q.val; omega)

/-- The second half's likewise is the array at (1, r, q). -/
theorem half1_apply (X : S2x150x150.Idx → EReal) (r q : Fin 150) :
    shapeCast S150x150 (extractStridedSlice S1x150x150 ![1, 0, 0] X slices_S2x150x150_S1x150x150_1_0_0)
      shapeCasts_S1x150x150_S150x150 (ix2 r q) = X (ix3 (1 : Fin 2) r q) := by
  rw [shapeCast_apply _ shapeCasts_S1x150x150_S150x150 (ix2 r q) (ix3 (0 : Fin 1) r q)
    (by rewrite [Shape.rowMajor_val_three, Shape.rowMajor_val_two]; show (0 * 150 + r.val) * 150 + q.val = r.val * 150 + q.val; omega)]
  exact extractStridedSlice_apply _ X _ (ix3 (0 : Fin 1) r q) (ix3 (1 : Fin 2) r q) (fun a => by
    match a with
    | ⟨0, _⟩ => show 1 = 1 + 0; rfl
    | ⟨1, _⟩ => show r.val = 0 + r.val; omega
    | ⟨2, _⟩ => show q.val = 0 + q.val; omega)

/-- The caller's matrix on core c, at its literal type. -/
abbrev cmA (c : Dev nD) : S150x150.Idx → EReal := m ((c : Thread nD τ).loc main_arg0)

/-- THE RESULT BUFFER after the host's last lines: the specification's function of the argument arrays. -/
theorem tail_v8 (c : Dev nD) :
    Pipeline.afterTail₀ cfgs (dats m) 0 (V0 m) [hostOps1] c main_v8
      = Cert.Hist.G (m ((c : Thread nD τ).loc main_arg0)) (Pl m c) (Tl m c) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.devRef .tc main_v2)
      = Gout m c := (Pipeline.withArrays_arr spec0 launch0.win.arr_inj c _ _ 2).trans (final2 m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  rw [e2, e0]
  funext i
  obtain ⟨r, q, rfl⟩ : ∃ (r : Fin 150) (q : Fin 150), i = ix2 r q := ⟨i 0, i 1, eq_ix2 i⟩
  show (cmA m c (ix2 r q)
        + shapeCast S150x150 (extractStridedSlice S1x150x150 ![0, 0, 0] (Gout m c) slices_S2x150x150_S1x150x150_0_0_0)
            shapeCasts_S1x150x150_S150x150 (ix2 r q))
      + shapeCast S150x150 (extractStridedSlice S1x150x150 ![1, 0, 0] (Gout m c) slices_S2x150x150_S1x150x150_1_0_0)
          shapeCasts_S1x150x150_S150x150 (ix2 r q) = _
  rw [half0_apply, half1_apply]
  show (cmA m c (ix2 r q) + cnt (Tl m c) (Pl m c) r.val q.val (0 * 4194304) 4194304)
      + cnt (Tl m c) (Pl m c) r.val q.val (1 * 4194304) 4194304 = _
  rw [Nat.zero_mul, Nat.one_mul]
  exact Cert.Hist.G_halves (cmA m c) (Pl m c) (Tl m c) (ix2 r q)

/-- THE RUN of the idealized kernel's program: it terminates with the result buffer at the specification's function of
    the argument arrays, and the argument arrays as they were. -/
theorem run : θ_run defs (onTc (τ := τ) (main (F := Ideal))) ⟨m, fun _ => 0, ρ⟩ fun r => ∀ c : Dev nD,
      r.2.mem ((c.tc : Thread nD τ).loc main_v8)
        = Cert.Hist.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Hist.KV

end
-- ==== Proof.RefValue.lean ====
/-
  The reference's result is the specification's function, where every label is in range.

  The reference flattens the pair (target, prediction) to target · 150 + prediction, adds one at that flat position of a
  zero vector of length 22500 for every sample, and reads the vector as a 150 × 150 matrix. With both labels in
  0 … 149 the flat position neither wraps nor leaves the vector, and it is the row-major position of cell
  (target, prediction): so position t · 150 + p receives one per sample with target t and prediction p.
-/
import proofs.«405786_j24532853194784_2_alg».proof.Proof.Gen.ReferenceIdeal.Read
import proofs.«405786_j24532853194784_2_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.Hist.Ref

open Idealize.ShloMosaic Idealize.ShloMosaic.ValueIdx Cert.ReferenceIdeal Cert.ReferenceIdeal.Gen
open scoped BigOperators

variable [Cert.ReferenceIdeal.Facts]

/-! ## Where an update lands

The scatter has one operand axis, and that axis is an inserted window axis named by the index vector's one
component. So an update's window coordinate on it is zero, and its start on it is the index word of that update,
read as a signed integer. -/

/-- The operand's only axis is an inserted window axis: the window coordinate on it is zero. -/
theorem window_eq_zero (j : S8388608.Idx) (a : Fin S22500.rank) :
    scatter_S22500_S8388608x1_S8388608_n_0_0_1.window j a = 0 := by
  unfold ScatterDims.window
  rw [dif_neg]
  intro h
  obtain rfl : a = 0 := Subsingleton.elim _ _
  revert h
  show ¬ ((0 : Fin 1) ∈ S22500.kept [0])
  decide

/-- The start of update j on the operand's axis is the index word in row j (column 0), read signed. -/
theorem start_eq (j : S8388608.Idx) (idx : IVec S8388608x1 32) (a : Fin S22500.rank) :
    scatter_S22500_S8388608x1_S8388608_n_0_0_1.start j idx a = (idx (ix2 (j 0) 0)).toInt := by
  obtain rfl : a = 0 := Subsingleton.elim _ _
  unfold ScatterDims.start
  rw [dif_pos (show (0 : Fin 1) ∈ scatter_S22500_S8388608x1_S8388608_n_0_0_1.scatterDimsToOperandDims from
    List.mem_singleton.mpr rfl)]
  congr 2
  funext b
  refine Fin.ext ?_
  match b with
  | ⟨0, _⟩ => rfl
  | ⟨1, _⟩ => rfl

/-- Update j lands at position i exactly when its index word, read signed, is i's coordinate. (A word that is negative
    or at least 22500 lands nowhere, and is no coordinate.) -/
theorem resultIdx_eq_some_iff (j : S8388608.Idx) (idx : IVec S8388608x1 32) (i : S22500.Idx) :
    scatter_S22500_S8388608x1_S8388608_n_0_0_1.resultIdx? j idx = some i ↔
      (idx (ix2 (j 0) 0)).toInt = ((i 0).val : ℤ) := by
  unfold ScatterDims.resultIdx?
  simp only [window_eq_zero, start_eq, Nat.cast_zero, add_zero]
  have hi : (i 0).val < 22500 := (i 0).isLt
  constructor
  · intro h
    split at h
    · rename_i hc
      have h0 := hc 0
      have := congrArg (fun f => (f 0).val) (Option.some.inj h)
      simp only at this
      omega
    · exact absurd h (by simp)
  · intro h
    rw [dif_pos]
    · congr 1
      funext a
      obtain rfl : a = 0 := Subsingleton.elim _ _
      refine Fin.ext ?_
      show ((idx (ix2 (j 0) 0)).toInt).toNat = (i 0).val
      omega
    · intro a
      obtain rfl : a = 0 := Subsingleton.elim _ _
      show 0 ≤ (idx (ix2 (j 0) 0)).toInt ∧ (idx (ix2 (j 0) 0)).toInt < (22500 : ℕ)
      omega

/-! ## The index word

For labels t, p in 0 … 149 the 32-bit word t · 150 + p is at most 149 · 150 + 149 = 22499, far below 2³¹: neither
the product nor the sum wraps, so read signed it is the integer t · 150 + p. -/

/-- The flat position of a pair of labels in range, read signed, is target · 150 + prediction. -/
theorem word_toInt (t p : BitVec 32) (ht : 0 ≤ t.toInt ∧ t.toInt < 150) (hp : 0 ≤ p.toInt ∧ p.toInt < 150) :
    (IntOp.addi (IntOp.muli t 150#32) p).toInt = t.toInt * 150 + p.toInt := by
  unfold IntOp.addi IntOp.muli
  rw [BitVec.toInt_add, BitVec.toInt_mul]
  have h150 : (150#32 : BitVec 32).toInt = 150 := by decide
  rw [h150]
  rw [Int.bmod_eq_of_le (n := t.toInt * 150) (by omega) (by omega)]
  rw [Int.bmod_eq_of_le (by omega) (by omega)]

/-- Row j of the index array is read from sample j. -/
theorem idx_v5_ix2 (j : S8388608.Idx) : Read.idx_main_v5 (ix2 (j 0) 0) = j := by
  funext a
  match a with
  | ⟨0, _⟩ => rfl

/-- The index word of sample j, read signed: its target label times 150 plus its predicted label. -/
theorem word_at (P T : IVec S8388608 32)
    (hP : ∀ n, 0 ≤ (P n).toInt ∧ (P n).toInt < 150) (hT : ∀ n, 0 ≤ (T n).toInt ∧ (T n).toInt < 150)
    (j : S8388608.Idx) :
    (Read.val_main_v5 (F := Ideal) P T (ix2 (j 0) 0)).toInt = (T j).toInt * 150 + (P j).toInt := by
  rw [Read.val_main_v5_apply, idx_v5_ix2, Read.val_main_v2_apply, Read.val_main_v1_apply, Read.val_main_v0_apply,
    Read.val_main_c_apply]
  exact word_toInt (T j) (P j) (hT j) (hP j)

/-! ## The scatter counts

On the extended reals the accumulating scatter is, at each position, the operand there plus the sum of the updates
that land there. The operand is zero and every update is one, so position t · 150 + p holds the number of samples
whose index word is t · 150 + p; with p below 150 that equation says target t and prediction p. -/

omit [Cert.ReferenceIdeal.Facts] in
/-- The accumulating scatter read at a position: the operand there plus the updates that land there. -/
theorem scatterAdd_apply {s si su : Shape} {φ : FTy} (d : ScatterDims s si su) {w : Nat}
    (x : FVec Ideal s φ) (idx : IVec si w) (upd : FVec Ideal su φ) (k : s.Idx) :
    Host.scatterAdd d x idx upd k
      = x k + ∑ j ∈ Finset.univ.filter (fun j => d.resultIdx? j idx = some k), upd j := rfl

/-- Position t · 150 + p of the scattered vector is the count of cell (t, p) over all samples. -/
theorem v6_count (P T : IVec S8388608 32)
    (hP : ∀ n, 0 ≤ (P n).toInt ∧ (P n).toInt < 150) (hT : ∀ n, 0 ≤ (T n).toInt ∧ (T n).toInt < 150)
    (t p : ℕ) (ht : t < 150) (hp : p < 150) (k : S22500.Idx) (hk : (k 0).val = t * 150 + p) :
    Read.val_main_v6 (F := Ideal) P T k = Cert.Hist.cnt T P t p 0 8388608 := by
  unfold Read.val_main_v6
  rw [scatterAdd_apply, Read.val_main_v4_apply, Read.val_main_cst_0_apply, Ideal.ofBits_def, Ideal.ofBits_zero_f32,
    zero_add, Finset.sum_filter]
  unfold Cert.Hist.cnt
  rw [Finset.sum_range]
  -- both sides are sums over the samples, one indexed by the rank-1 index and one by its coordinate
  refine Fintype.sum_equiv idxEquiv1 _ _ (fun j => ?_)
  show _ = Cert.Hist.hit T P t p (0 + (j 0).val)
  have hj : (j 0).val < 8388608 := (j 0).isLt
  have hjj : ix1 ⟨(j 0).val, hj⟩ = j := (eq_ix1 j).symm
  unfold Cert.Hist.hit
  rw [Nat.zero_add, dif_pos hj, hjj, Read.val_main_v3_apply, Read.val_main_cst_apply, Ideal.ofBits_def,
    Ideal.ofBits_one_f32]
  refine if_congr ?_ rfl rfl
  -- t · 150 + p with p < 150 determines t and p
  rw [resultIdx_eq_some_iff, word_at P T hP hT j, hk]
  have h1 := hT j
  have h2 := hP j
  omega

/-- With every label in 0 … 149, the reference's result is the caller's matrix plus every cell's count. -/
theorem ref_eq_G (cm : FVec Ideal S150x150 .f32) (P T : IVec S8388608 32)
    (hP : ∀ n, 0 ≤ (P n).toInt ∧ (P n).toInt < 150) (hT : ∀ n, 0 ≤ (T n).toInt ∧ (T n).toInt < 150) :
    Cert.ReferenceIdeal.Read.val_main_v8 (F := Ideal) cm P T = Cert.Hist.G cm P T := by
  funext i
  have h0 : (i 0).val < 150 := (i 0).isLt
  have h1 : (i 1).val < 150 := (i 1).isLt
  rw [Read.val_main_v8_apply, Read.val_main_v7_apply,
    v6_count P T hP hT (i 0).val (i 1).val h0 h1 (Read.idx_main_v7 i) rfl, Ideal.addf_def]
  unfold Cert.Hist.G
  rfl

end Cert.Hist.Ref

end
-- ==== Proof.PreRange.lean ====
/-
  What the precondition says of the labels: every target label and every predicted label lies in 0 … 149.

  The precondition is a conjunction of three tests, each an "and" over a whole array: the caller's matrix is finite, and
  for each of the two label arrays, every entry is at least 0 and below 150 as a signed integer.
-/
import proofs.«405786_j24532853194784_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Hist.Pre

open Idealize.ShloMosaic Idealize.ShloMosaic.ValueIdx Cert.Pre_finite_inputs

variable [Cert.Pre_finite_inputs.Facts]

/-- One label array: when the "and" over the whole array of the two-sided test is one, every entry, read as a signed
    integer, is at least 0 and below 150. -/
theorem range_of_reduce (X : IVec S8388608 32) (init : IVec S_ 1)
    (e : Host.reduce IntOp.andi
        (andi (cmpi .sge X (broadcastInDim S8388608 ![] Facts.bcast_S_S8388608 (constantI S_ 32 0#32)))
          (cmpi .slt X (broadcastInDim S8388608 ![] Facts.bcast_S_S8388608 (constantI S_ 32 150#32))))
        init Facts.reducesTo_S8388608_S_d0 Facts.h_S_ ix0 = 1#1) (n : S8388608.Idx) :
    0 ≤ (X n).toInt ∧ (X n).toInt < 150 := by
  -- a shape of rank zero has one index, so every entry of the array reduces into the one result
  haveI : Subsingleton S_.Idx := ⟨fun a b => funext fun d => d.elim0⟩
  have hn := Host.reduce_andi_all _ _ _ _ _ e n
  obtain ⟨h1, h2⟩ := IntOp.andi_eq_one.1 hn
  have h1' := IntOp.cmpi_sge.1 h1
  have h2' := IntOp.cmpi_slt.1 h2
  exact ⟨h1', h2'⟩

/-- Under the precondition both label arrays hold class numbers. -/
theorem range_of_pre (cm : FVec Ideal S150x150 .f32) (P T : IVec S8388608 32)
    (h : Cert.Pre_finite_inputs.fn (F := Ideal) cm P T = fun _ => 1#1) :
    (∀ n, 0 ≤ (P n).toInt ∧ (P n).toInt < 150) ∧ (∀ n, 0 ≤ (T n).toInt ∧ (T n).toInt < 150) := by
  have h0 := congrFun h ix0
  dsimp only [fn, fn_part1] at h0
  obtain ⟨h1, hT⟩ := IntOp.andi_eq_one.1 h0
  obtain ⟨-, hP⟩ := IntOp.andi_eq_one.1 h1
  exact ⟨range_of_reduce P _ hP, range_of_reduce T _ hT⟩

end Cert.Hist.Pre

end
-- ==== Proof.lean ====
/-
  A confusion-matrix update: the kernel against the reference, over the extended reals.

  Both programs take the caller's 150 × 150 matrix and two arrays of 8388608 labels (predicted and target) and return the
  matrix with, added in cell (t, p), the number of samples whose target label is t and whose predicted label is p.
  The reference flattens each pair of labels to t · 150 + p and adds one at that position of a vector of length 22500,
  which it then reads as a matrix. The kernel compares every label with every class number, multiplies the two indicator
  matrices chunk by chunk into a scratch accumulator, keeps one accumulator per half of the samples, and lets the host add
  the two halves onto the caller's matrix.
  The two agree where every label is a class number, 0 ≤ label < 150 — the precondition: outside it the reference counts
  a pair such as (0, 150) in cell (1, 0), and the kernel counts it nowhere. Under it, the flat position is the row-major
  position of the cell and does not wrap, so both sides are the caller's entry plus a sum of ones over the same samples;
  the kernel's sum is merely grouped by halves, points and chunks, and regrouping a finite sum of extended reals needs no
  finiteness. The caller's matrix enters only as a summand, so its finiteness is never used.
  The frames of the two kernel programs are the generated certificates; the reference's frame is its generated run; the
  idealization rewrote nothing, so its statement is trivial.
-/
import proofs.«405786_j24532853194784_2_alg».proof.Defs
import proofs.«405786_j24532853194784_2_alg».proof.Proof.Gen.Kernel
import proofs.«405786_j24532853194784_2_alg».proof.Proof.Gen.Kernel.Skeleton
import proofs.«405786_j24532853194784_2_alg».proof.Proof.Gen.Kernel.Loops
import proofs.«405786_j24532853194784_2_alg».proof.Proof.Gen.Kernel.Launch
import proofs.«405786_j24532853194784_2_alg».proof.Proof.Gen.Kernel.Points
import proofs.«405786_j24532853194784_2_alg».proof.Proof.Gen.Kernel.Frame
import proofs.«405786_j24532853194784_2_alg».proof.Proof.Gen.KernelIdeal
import proofs.«405786_j24532853194784_2_alg».proof.Proof.Gen.KernelIdeal.Skeleton
import proofs.«405786_j24532853194784_2_alg».proof.Proof.Gen.KernelIdeal.Loops
import proofs.«405786_j24532853194784_2_alg».proof.Proof.Gen.KernelIdeal.Launch
import proofs.«405786_j24532853194784_2_alg».proof.Proof.Gen.KernelIdeal.Points
import proofs.«405786_j24532853194784_2_alg».proof.Proof.Gen.KernelIdeal.Frame
import proofs.«405786_j24532853194784_2_alg».proof.Proof.Gen.ReferenceIdeal
import proofs.«405786_j24532853194784_2_alg».proof.Proof.Gen.ReferenceIdeal.Run
import proofs.«405786_j24532853194784_2_alg».proof.Proof.Gen.ReferenceIdeal.Read
import proofs.«405786_j24532853194784_2_alg».proof.Proof.Gen.Pre_finite_inputs
import proofs.«405786_j24532853194784_2_alg».proof.Proof.KernelRun
import proofs.«405786_j24532853194784_2_alg».proof.Proof.RefValue
import proofs.«405786_j24532853194784_2_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference is a straight line of host operations: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the caller's matrix plus every cell's count over all samples: the kernel by its
    halves, points and chunks, the reference — every label being a class number — by its flat positions. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Hist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Hist.KV.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hT⟩ := Cert.Hist.Pre.range_of_pre _ _ _ (hpre c)
  refine (Cert.ReferenceIdeal.Read.val_main_v8_eq (F := Ideal) _ _ _).trans ?_
  rw [(hagree c).1, (hagree c).2.1, (hagree c).2.2]
  exact Cert.Hist.Ref.ref_eq_G _ _ _ hP hT

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
